-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x96x96 : Shape := ⟨4, ![8, 32, 96, 96]⟩
abbrev S32x32x3x3 : Shape := ⟨4, ![32, 32, 3, 3]⟩
abbrev S_ : Shape := ⟨0, ![]⟩

class Facts : Prop where
  bcast_S_S8x32x96x96 : S_.BroadcastsInDim S8x32x96x96 (![] : Fin 0 → Fin S8x32x96x96.rank)
  reducesTo_S8x32x96x96_S_d0_1_2_3 : S8x32x96x96.ReducesTo [0, 1, 2, 3] S_
  h_S_ : 0 < S_.numel
  bcast_S_S32x32x3x3 : S_.BroadcastsInDim S32x32x3x3 (![] : Fin 0 → Fin S32x32x3x3.rank)
  reducesTo_S32x32x3x3_S_d0_1_2_3 : S32x32x3x3.ReducesTo [0, 1, 2, 3] S_

variable [Facts]

def fn {F : FTy → Type} [FloatOps F] (main_arg0 : FVec F S8x32x96x96 .f32) (main_arg1 : FVec F S32x32x3x3 .f32) : IVec S_ 1 :=
  let main_v0 : FVec F S8x32x96x96 .f32 := Host.absf main_arg0
  let main_cst : FVec F S_ .f32 := constant S_ .f32 0x7F800000#32
  let main_v1 : FVec F S8x32x96x96 .f32 := broadcastInDim S8x32x96x96 ![] bcast_S_S8x32x96x96 main_cst
  let main_v2 : IVec S8x32x96x96 1 := cmpf .olt main_v0 main_v1
  let main_c : IVec S_ 1 := constantI S_ 1 1#1
  let main_v3 : IVec S_ 1 := (fun x v => Host.reduce IntOp.andi x v reducesTo_S8x32x96x96_S_d0_1_2_3 h_S_) main_v2 main_c
  let main_v4 : FVec F S32x32x3x3 .f32 := Host.absf main_arg1
  let main_cst_0 : FVec F S_ .f32 := constant S_ .f32 0x7F800000#32
  let main_v5 : FVec F S32x32x3x3 .f32 := broadcastInDim S32x32x3x3 ![] bcast_S_S32x32x3x3 main_cst_0
  let main_v6 : IVec S32x32x3x3 1 := cmpf .olt main_v4 main_v5
  let main_c_1 : IVec S_ 1 := constantI S_ 1 1#1
  let main_v7 : IVec S_ 1 := (fun x v => Host.reduce IntOp.andi x v reducesTo_S32x32x3x3_S_d0_1_2_3 h_S_) main_v6 main_c_1
  let main_v8 : IVec S_ 1 := andi main_v3 main_v7
  main_v8
-- ==== Kernel.lean ====
abbrev S8x32x96x96 : Shape := ⟨4, ![8, 32, 96, 96]⟩
abbrev S32x32x3x3 : Shape := ⟨4, ![32, 32, 3, 3]⟩
abbrev S1x32x96x96 : Shape := ⟨4, ![1, 32, 96, 96]⟩
abbrev S8x32x3x3 : Shape := ⟨4, ![8, 32, 3, 3]⟩
abbrev S1x8x96x96 : Shape := ⟨4, ![1, 8, 96, 96]⟩
abbrev S32x98x98 : Shape := ⟨3, ![32, 98, 98]⟩
abbrev S32x96x96 : Shape := ⟨3, ![32, 96, 96]⟩
abbrev S8x96x96 : Shape := ⟨3, ![8, 96, 96]⟩
abbrev S8x32x1x1 : Shape := ⟨4, ![8, 32, 1, 1]⟩
abbrev S8x32 : Shape := ⟨2, ![8, 32]⟩

abbrev nBuf : Space → Nat
  | .hbm => 3
  | .vmem => 7
  | .smem => 0
  | _ => 0

abbrev bufTy : (tb : Table) → Fin (tcTables nBuf tb) → BufTy
  | .hbm, ⟨0, _⟩ => ⟨S8x32x96x96, .f32⟩
  | .hbm, ⟨1, _⟩ => ⟨S32x32x3x3, .f32⟩
  | .hbm, ⟨2, _⟩ => ⟨S8x32x96x96, .f32⟩
  | .local _ .vmem, ⟨0, _⟩ => ⟨S1x32x96x96, .f32⟩
  | .local _ .vmem, ⟨1, _⟩ => ⟨S1x32x96x96, .f32⟩
  | .local _ .vmem, ⟨2, _⟩ => ⟨S8x32x3x3, .f32⟩
  | .local _ .vmem, ⟨3, _⟩ => ⟨S8x32x3x3, .f32⟩
  | .local _ .vmem, ⟨4, _⟩ => ⟨S1x8x96x96, .f32⟩
  | .local _ .vmem, ⟨5, _⟩ => ⟨S1x8x96x96, .f32⟩
  | .local _ .vmem, ⟨6, _⟩ => ⟨S32x98x98, .f32⟩
  | _, _ => ⟨S8x32x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x96x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x32x3x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x96x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x96x96_S1x32x96x96_0_0_0_0 : ∀ a, (![0, 0, 0, 0] : Fin 4 → Nat) a + S1x32x96x96.size a ≤ S1x32x96x96.size a
  h_S1x32x96x96 : 0 < S1x32x96x96.numel
  shapeCasts_S1x32x96x96_S32x96x96 : S1x32x96x96.ShapeCasts S32x96x96
  inb_S8x32x3x3_S8x32x3x3_0_0_0_0 : ∀ a, (![0, 0, 0, 0] : Fin 4 → Nat) a + S8x32x3x3.size a ≤ S8x32x3x3.size a
  h_S8x32x3x3 : 0 < S8x32x3x3.numel
  inb_S32x98x98_S32x98x98_0_0_0 : ∀ a, (![0, 0, 0] : Fin 3 → Nat) a + S32x98x98.size a ≤ S32x98x98.size a
  h_S32x98x98 : 0 < S32x98x98.numel
  shapeCasts_S32x98x98_S32x98x98 : S32x98x98.ShapeCasts S32x98x98
  inb_S32x98x98_S32x96x96_0_1_1 : ∀ a, (![0, 1, 1] : Fin 3 → Nat) a + S32x96x96.size a ≤ S32x98x98.size a
  h_S32x96x96 : 0 < S32x96x96.numel
  shapeCasts_S32x96x96_S32x96x96 : S32x96x96.ShapeCasts S32x96x96
  inb_S32x98x98_S32x96x96_0_0_0 : ∀ a, (![0, 0, 0] : Fin 3 → Nat) a + S32x96x96.size a ≤ S32x98x98.size a
  slices_S8x32x3x3_o0_0_0_0_S8x32x1x1 : S8x32x3x3.Slices ![0, 0, 0, 0] S8x32x1x1
  shapeCasts_S8x32x1x1_S8x32 : S8x32x1x1.ShapeCasts S8x32
  shapeCasts_S32x96x96_S1x32x96x96 : S32x96x96.ShapeCasts S1x32x96x96
  shapeCasts_S8x32_S8x32x1x1 : S8x32.ShapeCasts S8x32x1x1
  broadcasts_S1x32x96x96_S8x32x96x96 : S1x32x96x96.Broadcasts S8x32x96x96
  broadcasts_S8x32x1x1_S8x32x96x96 : S8x32x1x1.Broadcasts S8x32x96x96
  reduces_S8x32x96x96_S8x96x96 : S8x32x96x96.Reduces [1] S8x96x96
  inb_S32x98x98_S32x96x96_0_0_1 : ∀ a, (![0, 0, 1] : Fin 3 → Nat) a + S32x96x96.size a ≤ S32x98x98.size a
  slices_S8x32x3x3_o0_0_0_1_S8x32x1x1 : S8x32x3x3.Slices ![0, 0, 0, 1] S8x32x1x1
  inb_S32x98x98_S32x96x96_0_0_2 : ∀ a, (![0, 0, 2] : Fin 3 → Nat) a + S32x96x96.size a ≤ S32x98x98.size a
  slices_S8x32x3x3_o0_0_0_2_S8x32x1x1 : S8x32x3x3.Slices ![0, 0, 0, 2] S8x32x1x1
  inb_S32x98x98_S32x96x96_0_1_0 : ∀ a, (![0, 1, 0] : Fin 3 → Nat) a + S32x96x96.size a ≤ S32x98x98.size a
  slices_S8x32x3x3_o0_0_1_0_S8x32x1x1 : S8x32x3x3.Slices ![0, 0, 1, 0] S8x32x1x1
  slices_S8x32x3x3_o0_0_1_1_S8x32x1x1 : S8x32x3x3.Slices ![0, 0, 1, 1] S8x32x1x1
  inb_S32x98x98_S32x96x96_0_1_2 : ∀ a, (![0, 1, 2] : Fin 3 → Nat) a + S32x96x96.size a ≤ S32x98x98.size a
  slices_S8x32x3x3_o0_0_1_2_S8x32x1x1 : S8x32x3x3.Slices ![0, 0, 1, 2] S8x32x1x1
  inb_S32x98x98_S32x96x96_0_2_0 : ∀ a, (![0, 2, 0] : Fin 3 → Nat) a + S32x96x96.size a ≤ S32x98x98.size a
  slices_S8x32x3x3_o0_0_2_0_S8x32x1x1 : S8x32x3x3.Slices ![0, 0, 2, 0] S8x32x1x1
  inb_S32x98x98_S32x96x96_0_2_1 : ∀ a, (![0, 2, 1] : Fin 3 → Nat) a + S32x96x96.size a ≤ S32x98x98.size a
  slices_S8x32x3x3_o0_0_2_1_S8x32x1x1 : S8x32x3x3.Slices ![0, 0, 2, 1] S8x32x1x1
  inb_S32x98x98_S32x96x96_0_2_2 : ∀ a, (![0, 2, 2] : Fin 3 → Nat) a + S32x96x96.size a ≤ S32x98x98.size a
  slices_S8x32x3x3_o0_0_2_2_S8x32x1x1 : S8x32x3x3.Slices ![0, 0, 2, 2] S8x32x1x1
  inb_S1x8x96x96_S1x8x96x96_0_0_0_0 : ∀ a, (![0, 0, 0, 0] : Fin 4 → Nat) a + S1x8x96x96.size a ≤ S1x8x96x96.size a
  h_S1x8x96x96 : 0 < S1x8x96x96.numel
  shapeCasts_S1x8x96x96_S8x96x96 : S1x8x96x96.ShapeCasts S8x96x96
  shapeCasts_S8x96x96_S1x8x96x96 : S8x96x96.ShapeCasts S1x8x96x96
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x96x96.size a ≤ S8x32x96x96.size a
  hwx0_0 : ∀ i : grid0.Coords, EltTy.bits .f32 = 32 ∨ (Rect.block (s := S8x32x96x96) S1x32x96x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x3x3.size a ≤ S32x32x3x3.size a
  hwx0_1 : ∀ i : grid0.Coords, EltTy.bits .f32 = 32 ∨ (Rect.block (s := S32x32x3x3) S8x32x3x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x96x96.size a ≤ S8x32x96x96.size a
  hwx0_2 : ∀ i : grid0.Coords, EltTy.bits .f32 = 32 ∨ (Rect.block (s := S8x32x96x96) S1x8x96x96.size (cc0_transform_2 i) (hinb0_2 i)).WholeWords (EltTy.packing .f32)

variable [Facts₀]

abbrev win0_0 : Pipeline.Window sig grid0 :=
  Pipeline.Window.ofSpec (Memref.whole main_arg0) S1x32x96x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x32x3x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x96x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x96x96 : Shape := ⟨4, ![8, 32, 96, 96]⟩
abbrev S32x32x3x3 : Shape := ⟨4, ![32, 32, 3, 3]⟩
abbrev S_ : Shape := ⟨0, ![]⟩
abbrev S8x32x98x98 : Shape := ⟨4, ![8, 32, 98, 98]⟩
abbrev S32x32x1x1 : Shape := ⟨4, ![32, 32, 1, 1]⟩
abbrev S32x32 : Shape := ⟨2, ![32, 32]⟩
abbrev S8x1x32x96x96 : Shape := ⟨5, ![8, 1, 32, 96, 96]⟩
abbrev S1x32x32x1x1 : Shape := ⟨5, ![1, 32, 32, 1, 1]⟩
abbrev S8x32x32x96x96 : Shape := ⟨5, ![8, 32, 32, 96, 96]⟩

abbrev nBuf : Space → Nat
  | .hbm => 103
  | .vmem => 0
  | .smem => 0
  | _ => 0

abbrev bufTy : (tb : Table) → Fin (tcTables nBuf tb) → BufTy
  | .hbm, ⟨0, _⟩ => ⟨S8x32x96x96, .f32⟩
  | .hbm, ⟨1, _⟩ => ⟨S32x32x3x3, .f32⟩
  | .hbm, ⟨2, _⟩ => ⟨S_, .f32⟩
  | .hbm, ⟨3, _⟩ => ⟨S_, .f32⟩
  | .hbm, ⟨4, _⟩ => ⟨S8x32x98x98, .f32⟩
  | .hbm, ⟨5, _⟩ => ⟨S8x32x96x96, .f32⟩
  | .hbm, ⟨6, _⟩ => ⟨S32x32x1x1, .f32⟩
  | .hbm, ⟨7, _⟩ => ⟨S32x32, .f32⟩
  | .hbm, ⟨8, _⟩ => ⟨S8x1x32x96x96, .f32⟩
  | .hbm, ⟨9, _⟩ => ⟨S1x32x32x1x1, .f32⟩
  | .hbm, ⟨10, _⟩ => ⟨S8x32x32x96x96, .f32⟩
  | .hbm, ⟨11, _⟩ => ⟨S8x32x32x96x96, .f32⟩
  | .hbm, ⟨12, _⟩ => ⟨S8x32x32x96x96, .f32⟩
  | .hbm, ⟨13, _⟩ => ⟨S_, .f32⟩
  | .hbm, ⟨14, _⟩ => ⟨S8x32x96x96, .f32⟩
  | .hbm, ⟨15, _⟩ => ⟨S8x32x96x96, .f32⟩
  | .hbm, ⟨16, _⟩ => ⟨S32x32x1x1, .f32⟩
  | .hbm, ⟨17, _⟩ => ⟨S32x32, .f32⟩
  | .hbm, ⟨18, _⟩ => ⟨S8x1x32x96x96, .f32⟩
  | .hbm, ⟨19, _⟩ => ⟨S1x32x32x1x1, .f32⟩
  | .hbm, ⟨20, _⟩ => ⟨S8x32x32x96x96, .f32⟩
  | .hbm, ⟨21, _⟩ => ⟨S8x32x32x96x96, .f32⟩
  | .hbm, ⟨22, _⟩ => ⟨S8x32x32x96x96, .f32⟩
  | .hbm, ⟨23, _⟩ => ⟨S_, .f32⟩
  | .hbm, ⟨24, _⟩ => ⟨S8x32x96x96, .f32⟩
  | .hbm, ⟨25, _⟩ => ⟨S8x32x96x96, .f32⟩
  | .hbm, ⟨26, _⟩ => ⟨S8x32x96x96, .f32⟩
  | .hbm, ⟨27, _⟩ => ⟨S32x32x1x1, .f32⟩
  | .hbm, ⟨28, _⟩ => ⟨S32x32, .f32⟩
  | .hbm, ⟨29, _⟩ => ⟨S8x1x32x96x96, .f32⟩
  | .hbm, ⟨30, _⟩ => ⟨S1x32x32x1x1, .f32⟩
  | .hbm, ⟨31, _⟩ => ⟨S8x32x32x96x96, .f32⟩
  | .hbm, ⟨32, _⟩ => ⟨S8x32x32x96x96, .f32⟩
  | .hbm, ⟨33, _⟩ => ⟨S8x32x32x96x96, .f32⟩
  | .hbm, ⟨34, _⟩ => ⟨S_, .f32⟩
  | .hbm, ⟨35, _⟩ => ⟨S8x32x96x96, .f32⟩
  | .hbm, ⟨36, _⟩ => ⟨S8x32x96x96, .f32⟩
  | .hbm, ⟨37, _⟩ => ⟨S8x32x96x96, .f32⟩
  | .hbm, ⟨38, _⟩ => ⟨S32x32x1x1, .f32⟩
  | .hbm, ⟨39, _⟩ => ⟨S32x32, .f32⟩
  | .hbm, ⟨40, _⟩ => ⟨S8x1x32x96x96, .f32⟩
  | .hbm, ⟨41, _⟩ => ⟨S1x32x32x1x1, .f32⟩
  | .hbm, ⟨42, _⟩ => ⟨S8x32x32x96x96, .f32⟩
  | .hbm, ⟨43, _⟩ => ⟨S8x32x32x96x96, .f32⟩
  | .hbm, ⟨44, _⟩ => ⟨S8x32x32x96x96, .f32⟩
  | .hbm, ⟨45, _⟩ => ⟨S_, .f32⟩
  | .hbm, ⟨46, _⟩ => ⟨S8x32x96x96, .f32⟩
  | .hbm, ⟨47, _⟩ => ⟨S8x32x96x96, .f32⟩
  | .hbm, ⟨48, _⟩ => ⟨S8x32x96x96, .f32⟩
  | .hbm, ⟨49, _⟩ => ⟨S32x32x1x1, .f32⟩
  | .hbm, ⟨50, _⟩ => ⟨S32x32, .f32⟩
  | .hbm, ⟨51, _⟩ => ⟨S8x1x32x96x96, .f32⟩
  | .hbm, ⟨52, _⟩ => ⟨S1x32x32x1x1, .f32⟩
  | .hbm, ⟨53, _⟩ => ⟨S8x32x32x96x96, .f32⟩
  | .hbm, ⟨54, _⟩ => ⟨S8x32x32x96x96, .f32⟩
  | .hbm, ⟨55, _⟩ => ⟨S8x32x32x96x96, .f32⟩
  | .hbm, ⟨56, _⟩ => ⟨S_, .f32⟩
  | .hbm, ⟨57, _⟩ => ⟨S8x32x96x96, .f32⟩
  | .hbm, ⟨58, _⟩ => ⟨S8x32x96x96, .f32⟩
  | .hbm, ⟨59, _⟩ => ⟨S8x32x96x96, .f32⟩
  | .hbm, ⟨60, _⟩ => ⟨S32x32x1x1, .f32⟩
  | .hbm, ⟨61, _⟩ => ⟨S32x32, .f32⟩
  | .hbm, ⟨62, _⟩ => ⟨S8x1x32x96x96, .f32⟩
  | .hbm, ⟨63, _⟩ => ⟨S1x32x32x1x1, .f32⟩
  | .hbm, ⟨64, _⟩ => ⟨S8x32x32x96x96, .f32⟩
  | .hbm, ⟨65, _⟩ => ⟨S8x32x32x96x96, .f32⟩
  | .hbm, ⟨66, _⟩ => ⟨S8x32x32x96x96, .f32⟩
  | .hbm, ⟨67, _⟩ => ⟨S_, .f32⟩
  | .hbm, ⟨68, _⟩ => ⟨S8x32x96x96, .f32⟩
  | .hbm, ⟨69, _⟩ => ⟨S8x32x96x96, .f32⟩
  | .hbm, ⟨70, _⟩ => ⟨S8x32x96x96, .f32⟩
  | .hbm, ⟨71, _⟩ => ⟨S32x32x1x1, .f32⟩
  | .hbm, ⟨72, _⟩ => ⟨S32x32, .f32⟩
  | .hbm, ⟨73, _⟩ => ⟨S8x1x32x96x96, .f32⟩
  | .hbm, ⟨74, _⟩ => ⟨S1x32x32x1x1, .f32⟩
  | .hbm, ⟨75, _⟩ => ⟨S8x32x32x96x96, .f32⟩
  | .hbm, ⟨76, _⟩ => ⟨S8x32x32x96x96, .f32⟩
  | .hbm, ⟨77, _⟩ => ⟨S8x32x32x96x96, .f32⟩
  | .hbm, ⟨78, _⟩ => ⟨S_, .f32⟩
  | .hbm, ⟨79, _⟩ => ⟨S8x32x96x96, .f32⟩
  | .hbm, ⟨80, _⟩ => ⟨S8x32x96x96, .f32⟩
  | .hbm, ⟨81, _⟩ => ⟨S8x32x96x96, .f32⟩
  | .hbm, ⟨82, _⟩ => ⟨S32x32x1x1, .f32⟩
  | .hbm, ⟨83, _⟩ => ⟨S32x32, .f32⟩
  | .hbm, ⟨84, _⟩ => ⟨S8x1x32x96x96, .f32⟩
  | .hbm, ⟨85, _⟩ => ⟨S1x32x32x1x1, .f32⟩
  | .hbm, ⟨86, _⟩ => ⟨S8x32x32x96x96, .f32⟩
  | .hbm, ⟨87, _⟩ => ⟨S8x32x32x96x96, .f32⟩
  | .hbm, ⟨88, _⟩ => ⟨S8x32x32x96x96, .f32⟩
  | .hbm, ⟨89, _⟩ => ⟨S_, .f32⟩
  | .hbm, ⟨90, _⟩ => ⟨S8x32x96x96, .f32⟩
  | .hbm, ⟨91, _⟩ => ⟨S8x32x96x96, .f32⟩
  | .hbm, ⟨92, _⟩ => ⟨S8x32x96x96, .f32⟩
  | .hbm, ⟨93, _⟩ => ⟨S32x32x1x1, .f32⟩
  | .hbm, ⟨94, _⟩ => ⟨S32x32, .f32⟩
  | .hbm, ⟨95, _⟩ => ⟨S8x1x32x96x96, .f32⟩
  | .hbm, ⟨96, _⟩ => ⟨S1x32x32x1x1, .f32⟩
  | .hbm, ⟨97, _⟩ => ⟨S8x32x32x96x96, .f32⟩
  | .hbm, ⟨98, _⟩ => ⟨S8x32x32x96x96, .f32⟩
  | .hbm, ⟨99, _⟩ => ⟨S8x32x32x96x96, .f32⟩
  | .hbm, ⟨100, _⟩ => ⟨S_, .f32⟩
  | .hbm, ⟨101, _⟩ => ⟨S8x32x96x96, .f32⟩
  | .hbm, ⟨102, _⟩ => ⟨S8x32x96x96, .f32⟩
  | _, _ => ⟨S8x32x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_6 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_cst_7 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_cst_8 : Ref sig .tc := ⟨.hbm, 100, rfl⟩
abbrev main_v88 : Ref sig .tc := ⟨.hbm, 101, rfl⟩
abbrev main_v89 : Ref sig .tc := ⟨.hbm, 102, rfl⟩

abbrev nD : Nat := 1
abbrev τ : Topo := Topo.v7x

variable {F : FTy → Type} [FloatOps F]

class Facts₀ : Prop where
  pads_S8x32x96x96_S8x32x98x98_000_000_110_110 : S8x32x96x96.Pads (![0, 0, 1, 1] : Fin 4 → Nat) ![0, 0, 1, 1] ![0, 0, 0, 0] S8x32x98x98
  h_S_ : 0 < S_.numel
  slices_S8x32x98x98_S8x32x96x96_0_0_0_0 : S8x32x98x98.Slices ![0, 0, 0, 0] S8x32x96x96
  slices_S32x32x3x3_S32x32x1x1_0_0_0_0 : S32x32x3x3.Slices ![0, 0, 0, 0] S32x32x1x1
  shapeCasts_S32x32x1x1_S32x32 : S32x32x1x1.ShapeCasts S32x32
  bcast_S8x32x96x96_S8x1x32x96x96_0_2_3_4 : S8x32x96x96.BroadcastsInDim S8x1x32x96x96 (![0, 2, 3, 4] : Fin 4 → Fin S8x1x32x96x96.rank)
  bcast_S32x32_S1x32x32x1x1_1_2 : S32x32.BroadcastsInDim S1x32x32x1x1 (![1, 2] : Fin 2 → Fin S1x32x32x1x1.rank)
  bcast_S8x1x32x96x96_S8x32x32x96x96_0_1_2_3_4 : S8x1x32x96x96.BroadcastsInDim S8x32x32x96x96 (![0, 1, 2, 3, 4] : Fin 5 → Fin S8x32x32x96x96.rank)
  bcast_S1x32x32x1x1_S8x32x32x96x96_0_1_2_3_4 : S1x32x32x1x1.BroadcastsInDim S8x32x32x96x96 (![0, 1, 2, 3, 4] : Fin 5 → Fin S8x32x32x96x96.rank)
  reducesTo_S8x32x32x96x96_S8x32x96x96_d2 : S8x32x32x96x96.ReducesTo [2] S8x32x96x96
  slices_S8x32x98x98_S8x32x96x96_0_0_0_1 : S8x32x98x98.Slices ![0, 0, 0, 1] S8x32x96x96
  slices_S32x32x3x3_S32x32x1x1_0_0_0_1 : S32x32x3x3.Slices ![0, 0, 0, 1] S32x32x1x1
  slices_S8x32x98x98_S8x32x96x96_0_0_0_2 : S8x32x98x98.Slices ![0, 0, 0, 2] S8x32x96x96
  slices_S32x32x3x3_S32x32x1x1_0_0_0_2 : S32x32x3x3.Slices ![0, 0, 0, 2] S32x32x1x1
  slices_S8x32x98x98_S8x32x96x96_0_0_1_0 : S8x32x98x98.Slices ![0, 0, 1, 0] S8x32x96x96
  slices_S32x32x3x3_S32x32x1x1_0_0_1_0 : S32x32x3x3.Slices ![0, 0, 1, 0] S32x32x1x1
  slices_S8x32x98x98_S8x32x96x96_0_0_1_1 : S8x32x98x98.Slices ![0, 0, 1, 1] S8x32x96x96
  slices_S32x32x3x3_S32x32x1x1_0_0_1_1 : S32x32x3x3.Slices ![0, 0, 1, 1] S32x32x1x1
  slices_S8x32x98x98_S8x32x96x96_0_0_1_2 : S8x32x98x98.Slices ![0, 0, 1, 2] S8x32x96x96
  slices_S32x32x3x3_S32x32x1x1_0_0_1_2 : S32x32x3x3.Slices ![0, 0, 1, 2] S32x32x1x1
  slices_S8x32x98x98_S8x32x96x96_0_0_2_0 : S8x32x98x98.Slices ![0, 0, 2, 0] S8x32x96x96
  slices_S32x32x3x3_S32x32x1x1_0_0_2_0 : S32x32x3x3.Slices ![0, 0, 2, 0] S32x32x1x1
  slices_S8x32x98x98_S8x32x96x96_0_0_2_1 : S8x32x98x98.Slices ![0, 0, 2, 1] S8x32x96x96
  slices_S32x32x3x3_S32x32x1x1_0_0_2_1 : S32x32x3x3.Slices ![0, 0, 2, 1] S32x32x1x1
  slices_S8x32x98x98_S8x32x96x96_0_0_2_2 : S8x32x98x98.Slices ![0, 0, 2, 2] S8x32x96x96
  slices_S32x32x3x3_S32x32x1x1_0_0_2_2 : S32x32x3x3.Slices ![0, 0, 2, 2] S32x32x1x1

variable [Facts₀]

class Facts : Prop extends Facts₀ where

variable [Facts]
-- ==== Proof.MaxMinSpec.lean ====
/-
  The max–min "convolution" that both programs compute, as ONE function of the two argument arrays, and the
  reading of one tap of it off the vector operations of a tile (eight output channels of one image) and off the
  whole-array operations of the plain formulation.

  For an input `X : [8, 32, 96, 96]` and weights `K : [32, 32, 3, 3]`,
    out[n, oc, i, j] = max over the nine taps (a, b) of  max over ic of  min (X̄[n, ic, i + a, j + b]) (K[oc, ic, a, b]),
  where `X̄` is `X` with a border of −∞, one entry wide, around each 96 × 96 plane (X̄[n, ic, p, q] = X[n, ic, p − 1, q − 1]
  for 1 ≤ p, q ≤ 96, and −∞ on the border). −∞ is the least extended real, so it is the unit of `max`: a running maximum
  started at −∞ and one started at the first tap agree. No other law is used, and none needs finiteness.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

namespace Cert.MaxMin

open Idealize.ShloMosaic Idealize.ShloMosaic.ValueIdx

/-- The input's and the result's shape, and the weights'. -/
abbrev SX : Shape := ⟨4, ![8, 32, 96, 96]⟩
abbrev SK : Shape := ⟨4, ![32, 32, 3, 3]⟩

/-- The pattern of −∞ denotes the least extended real. -/
theorem negInf : Ideal.ofBits .f32 0xFF800000#32 = (⊥ : EReal) := by simp [Ideal.ofBits, Ideal.ieee]

/-- A 96 × 96 plane with a border of −∞ one entry wide, read at (p, q) of the 98 × 98 plane. -/
def borderedAt (f : Fin 96 → Fin 96 → EReal) (p q : ℕ) : EReal :=
  if h : (1 ≤ p ∧ p ≤ 96) ∧ (1 ≤ q ∧ q ≤ 96) then f ⟨p - 1, by omega⟩ ⟨q - 1, by omega⟩ else ⊥

/-- One tap: over 32 bordered planes `f ic` and 32 weights `w ic`, the largest over the channels of the smaller of the
    plane's entry (p, q) and the weight. -/
def tapOf (f : Fin 32 → Fin 96 → Fin 96 → EReal) (w : Fin 32 → EReal) (p q : ℕ) : EReal :=
  (Finset.univ : Finset (Fin 32)).fold max ⊥ (fun ic => min (borderedAt (f ic) p q) (w ic))

/-- The largest of nine numbers, taken in the order (0,0), (0,1), …, (2,2). -/
def nine (T : Fin 3 → Fin 3 → EReal) : EReal :=
  max (max (max (max (max (max (max (max (T 0 0) (T 0 1)) (T 0 2)) (T 1 0)) (T 1 1)) (T 1 2)) (T 2 0)) (T 2 1)) (T 2 2)

/-- The result at (n, oc, i, j): the largest of the nine taps (a, b), tap (a, b) read at (i + a, j + b) of image n's
    bordered planes against the weights (oc, ·, a, b). -/
def Gat (X : SX.Idx → EReal) (K : SK.Idx → EReal) (n : Fin 8) (oc : Fin 32) (i j : Fin 96) : EReal :=
  nine fun a b => tapOf (fun ic r s => X (ix4 n ic r s)) (fun ic => K (ix4 oc ic a b)) (i.val + a.val) (j.val + b.val)

/-- The result array. -/
def G (X : SX.Idx → EReal) (K : SK.Idx → EReal) : SX.Idx → EReal := fun y => Gat X K (y 0) (y 1) (y 2) (y 3)

theorem G_ix4 (X : SX.Idx → EReal) (K : SK.Idx → EReal) (n : Fin 8) (oc : Fin 32) (i j : Fin 96) :
    G X K (ix4 n oc i j) = Gat X K n oc i j := rfl

/-- A running maximum started at −∞ is the one started at its first term. -/
theorem nine_from_bot (T : Fin 3 → Fin 3 → EReal) :
    max (max (max (max (max (max (max (max (max ⊥ (T 0 0)) (T 0 1)) (T 0 2)) (T 1 0)) (T 1 1)) (T 1 2)) (T 2 0)) (T 2 1)) (T 2 2)
      = nine T := by
  unfold nine; rw [bot_sup_eq]

/-! ## One tap of a tile, off its vector operations

A tile's tap (a, b) takes a [32, 96, 96] window `v` of the bordered image, lays it along a new leading axis of eight, lays
the [8, 32] weights of the tap (a [8, 32, 1, 1] slice of the tile's [8, 32, 3, 3] weights) along the two trailing axes, takes
the smaller entry by entry and the largest over the channel axis, from −∞. At (o, i, j) that is the fold of `max` from ⊥ over
the channels of `min (v[ic, i, j]) (w[o, ic, a, b])`. -/

abbrev T32x96x96 : Shape := ⟨3, ![32, 96, 96]⟩
abbrev T1x32x96x96 : Shape := ⟨4, ![1, 32, 96, 96]⟩
abbrev T8x32x96x96 : Shape := ⟨4, ![8, 32, 96, 96]⟩
abbrev T8x96x96 : Shape := ⟨3, ![8, 96, 96]⟩
abbrev T8x32x3x3 : Shape := ⟨4, ![8, 32, 3, 3]⟩
abbrev T8x32x1x1 : Shape := ⟨4, ![8, 32, 1, 1]⟩
abbrev T8x32 : Shape := ⟨2, ![8, 32]⟩

/-- The source index over (o, i, j) with channel `ic` put back on the reduced axis. -/
theorem lift_channel (hr : T8x32x96x96.Reduces [1] T8x96x96) (o : Fin 8) (i j : Fin 96) (ic : Fin 32) :
    hr.lift (ix3 o i j) ic = ix4 o ic i j := by
  funext c
  apply Fin.ext
  match c with
  | ⟨0, _⟩ => rfl
  | ⟨1, _⟩ => rfl
  | ⟨2, _⟩ => rfl
  | ⟨3, _⟩ => rfl

/-- The window laid along the leading axis: at (o, ic, i, j) it is the window at (ic, i, j). -/
theorem window_apply (v : FVec Ideal T32x96x96 .f32) (h1 : T32x96x96.ShapeCasts T1x32x96x96)
    (h2 : T1x32x96x96.Broadcasts T8x32x96x96) (o : Fin 8) (ic : Fin 32) (i j : Fin 96) :
    broadcastTo T8x32x96x96 (shapeCast T1x32x96x96 v h1) h2 (ix4 o ic i j) = v (ix3 ic i j) := by
  refine (broadcastTo_apply _ h2 (ix4 o ic i j) (ix4 (0 : Fin 1) ic i j) (fun c => ?_)).trans ?_
  · match c with
    | ⟨0, _⟩ => rfl
    | ⟨1, _⟩ => rfl
    | ⟨2, _⟩ => rfl
    | ⟨3, _⟩ => rfl
  · refine shapeCast_apply v h1 _ (ix3 ic i j) ?_
    rw [Shape.rowMajor_val_three, Shape.rowMajor_val_four]
    show (ic.val * 96 + i.val) * 96 + j.val = (((0 : Fin 1).val * 32 + ic.val) * 96 + i.val) * 96 + j.val
    simp

/-- The tap's weights laid along the trailing axes: at (o, ic, i, j) they are the tile's weight (o, ic, a, b). -/
theorem weights_apply (w : FVec Ideal T8x32x3x3 .f32) (a b : Fin 3)
    (hs : T8x32x3x3.Slices ![0, 0, a.val, b.val] T8x32x1x1) (h1 : T8x32x1x1.ShapeCasts T8x32)
    (h2 : T8x32.ShapeCasts T8x32x1x1) (h3 : T8x32x1x1.Broadcasts T8x32x96x96) (o : Fin 8) (ic : Fin 32) (i j : Fin 96) :
    broadcastTo T8x32x96x96 (shapeCast T8x32x1x1 (shapeCast T8x32 (extractStridedSlice T8x32x1x1 ![0, 0, a.val, b.val] w hs) h1) h2) h3
      (ix4 o ic i j) = w (ix4 o ic a b) := by
  refine (broadcastTo_apply _ h3 (ix4 o ic i j) (ix4 o ic (0 : Fin 1) (0 : Fin 1)) (fun c => ?_)).trans ?_
  · match c with
    | ⟨0, _⟩ => rfl
    | ⟨1, _⟩ => rfl
    | ⟨2, _⟩ => rfl
    | ⟨3, _⟩ => rfl
  refine (shapeCast_apply _ h2 _ (ix2 o ic) ?_).trans ?_
  · rw [Shape.rowMajor_val_two, Shape.rowMajor_val_four]
    show o.val * 32 + ic.val = ((o.val * 32 + ic.val) * 1 + (0 : Fin 1).val) * 1 + (0 : Fin 1).val
    simp
  refine (shapeCast_apply _ h1 _ (ix4 o ic (0 : Fin 1) (0 : Fin 1)) ?_).trans ?_
  · rw [Shape.rowMajor_val_two, Shape.rowMajor_val_four]
    show ((o.val * 32 + ic.val) * 1 + (0 : Fin 1).val) * 1 + (0 : Fin 1).val = o.val * 32 + ic.val
    simp
  refine extractStridedSlice_apply _ w hs _ (ix4 o ic a b) (fun c => ?_)
  match c with
  | ⟨0, _⟩ => show o.val = 0 + o.val; omega
  | ⟨1, _⟩ => show ic.val = 0 + ic.val; omega
  | ⟨2, _⟩ => show a.val = a.val + (0 : Fin 1).val; simp
  | ⟨3, _⟩ => show b.val = b.val + (0 : Fin 1).val; simp

/-- One tap of a tile at (o, i, j). -/
theorem tile_tap (v : FVec Ideal T32x96x96 .f32) (w : FVec Ideal T8x32x3x3 .f32) (a b : Fin 3)
    (hs : T8x32x3x3.Slices ![0, 0, a.val, b.val] T8x32x1x1) (h1 : T8x32x1x1.ShapeCasts T8x32)
    (h2 : T8x32.ShapeCasts T8x32x1x1) (h3 : T8x32x1x1.Broadcasts T8x32x96x96)
    (g1 : T32x96x96.ShapeCasts T1x32x96x96) (g2 : T1x32x96x96.Broadcasts T8x32x96x96)
    (hr : T8x32x96x96.Reduces [1] T8x96x96) (hφ : FKind.Formats .f32)
    (hacc : (0xFF800000#32 : BitVec 32) = FKind.maximumf.neutral .f32 hφ) (o : Fin 8) (i j : Fin 96) :
    multiReduction (F := Ideal) .maximumf [1] T8x96x96
        (minimumf (broadcastTo T8x32x96x96 (shapeCast T1x32x96x96 v g1) g2)
          (broadcastTo T8x32x96x96 (shapeCast T8x32x1x1 (shapeCast T8x32 (extractStridedSlice T8x32x1x1 ![0, 0, a.val, b.val] w hs) h1) h2) h3))
        0xFF800000#32 hr hφ hacc (ix3 o i j)
      = (Finset.univ : Finset (Fin 32)).fold max ⊥ (fun ic => min (v (ix3 ic i j)) (w (ix4 o ic a b))) := by
  rw [Ideal.multiReduction_maximumf_single]
  show (Finset.univ : Finset (Fin 32)).fold max (Ideal.ofBits .f32 0xFF800000#32) _ = _
  rw [negInf]
  refine Finset.fold_congr (fun ic _ => ?_)
  show min _ _ = _
  rw [lift_channel hr o i j ic, window_apply, weights_apply]

/-! ## One tap of the plain formulation, off its whole-array operations

There the padded input `xp : [8, 32, 98, 98]` is sliced at (0, 0, a, b) to [8, 32, 96, 96] and laid along a new axis of output
channels, the weights' [32, 32, 1, 1] slice at (0, 0, a, b) is laid along the image and the two plane axes, the smaller is taken
entry by entry in [8, 32, 32, 96, 96] and the largest over the input-channel axis, from −∞. -/

abbrev R_ : Shape := ⟨0, ![]⟩
abbrev R8x32x98x98 : Shape := ⟨4, ![8, 32, 98, 98]⟩
abbrev R32x32x1x1 : Shape := ⟨4, ![32, 32, 1, 1]⟩
abbrev R32x32 : Shape := ⟨2, ![32, 32]⟩
abbrev R8x1x32x96x96 : Shape := ⟨5, ![8, 1, 32, 96, 96]⟩
abbrev R1x32x32x1x1 : Shape := ⟨5, ![1, 32, 32, 1, 1]⟩
abbrev R8x32x32x96x96 : Shape := ⟨5, ![8, 32, 32, 96, 96]⟩

theorem reduces_channels : R8x32x32x96x96.Reduces [2] SX := by decide

/-- The source index over (n, oc, i, j) with input channel `ic` put back on the reduced axis. -/
theorem lift_in_channel (n : Fin 8) (oc : Fin 32) (i j : Fin 96) (ic : Fin 32) :
    reduces_channels.lift (ix4 n oc i j) ic = ix5 n oc ic i j := by
  funext c
  apply Fin.ext
  match c with
  | ⟨0, _⟩ => rfl
  | ⟨1, _⟩ => rfl
  | ⟨2, _⟩ => rfl
  | ⟨3, _⟩ => rfl
  | ⟨4, _⟩ => rfl

/-- The padded input's slice laid along the output channels: at (n, oc, ic, i, j) it is the padded input at (n, ic, i + a, j + b). -/
theorem ref_window_apply (xp : R8x32x98x98.Idx → EReal) (a b : Fin 3)
    (hs : R8x32x98x98.Slices ![0, 0, a.val, b.val] SX)
    (hb1 : SX.BroadcastsInDim R8x1x32x96x96 ![0, 2, 3, 4])
    (hb2 : R8x1x32x96x96.BroadcastsInDim R8x32x32x96x96 ![0, 1, 2, 3, 4])
    (n : Fin 8) (oc ic : Fin 32) (i j : Fin 96) :
    broadcastInDim R8x32x32x96x96 ![0, 1, 2, 3, 4] hb2
        (broadcastInDim R8x1x32x96x96 ![0, 2, 3, 4] hb1 (extractStridedSlice SX ![0, 0, a.val, b.val] xp hs)) (ix5 n oc ic i j)
      = xp (ix4 n ic ⟨i.val + a.val, by omega⟩ ⟨j.val + b.val, by omega⟩) := by
  refine (broadcastInDim_apply _ hb2 _ (ix5 n oc ic i j) (ix5 n (0 : Fin 1) ic i j) (fun c => ?_)).trans ?_
  · match c with
    | ⟨0, _⟩ => rfl
    | ⟨1, _⟩ => rfl
    | ⟨2, _⟩ => rfl
    | ⟨3, _⟩ => rfl
    | ⟨4, _⟩ => rfl
  refine (broadcastInDim_apply _ hb1 _ (ix5 n (0 : Fin 1) ic i j) (ix4 n ic i j) (fun c => ?_)).trans ?_
  · match c with
    | ⟨0, _⟩ => rfl
    | ⟨1, _⟩ => rfl
    | ⟨2, _⟩ => rfl
    | ⟨3, _⟩ => rfl
  refine extractStridedSlice_apply _ xp hs _ _ (fun c => ?_)
  match c with
  | ⟨0, _⟩ => show n.val = 0 + n.val; omega
  | ⟨1, _⟩ => show ic.val = 0 + ic.val; omega
  | ⟨2, _⟩ => show i.val + a.val = a.val + i.val; omega
  | ⟨3, _⟩ => show j.val + b.val = b.val + j.val; omega

/-- The weights' slice laid along the image and the plane: at (n, oc, ic, i, j) it is the weight (oc, ic, a, b). -/
theorem ref_weights_apply (k : SK.Idx → EReal) (a b : Fin 3)
    (hs : SK.Slices ![0, 0, a.val, b.val] R32x32x1x1) (hc : R32x32x1x1.ShapeCasts R32x32)
    (hb1 : R32x32.BroadcastsInDim R1x32x32x1x1 ![1, 2])
    (hb2 : R1x32x32x1x1.BroadcastsInDim R8x32x32x96x96 ![0, 1, 2, 3, 4])
    (n : Fin 8) (oc ic : Fin 32) (i j : Fin 96) :
    broadcastInDim R8x32x32x96x96 ![0, 1, 2, 3, 4] hb2
        (broadcastInDim R1x32x32x1x1 ![1, 2] hb1 (shapeCast R32x32 (extractStridedSlice R32x32x1x1 ![0, 0, a.val, b.val] k hs) hc))
        (ix5 n oc ic i j)
      = k (ix4 oc ic a b) := by
  refine (broadcastInDim_apply _ hb2 _ (ix5 n oc ic i j) (ix5 (0 : Fin 1) oc ic (0 : Fin 1) (0 : Fin 1)) (fun c => ?_)).trans ?_
  · match c with
    | ⟨0, _⟩ => rfl
    | ⟨1, _⟩ => rfl
    | ⟨2, _⟩ => rfl
    | ⟨3, _⟩ => rfl
    | ⟨4, _⟩ => rfl
  refine (broadcastInDim_apply _ hb1 _ _ (ix2 oc ic) (fun c => ?_)).trans ?_
  · match c with
    | ⟨0, _⟩ => rfl
    | ⟨1, _⟩ => rfl
  refine (shapeCast_apply _ hc _ (ix4 oc ic (0 : Fin 1) (0 : Fin 1)) ?_).trans ?_
  · rw [Shape.rowMajor_val_two, Shape.rowMajor_val_four]
    show ((oc.val * 32 + ic.val) * 1 + (0 : Fin 1).val) * 1 + (0 : Fin 1).val = oc.val * 32 + ic.val
    simp
  refine extractStridedSlice_apply _ k hs _ (ix4 oc ic a b) (fun c => ?_)
  match c with
  | ⟨0, _⟩ => show oc.val = 0 + oc.val; omega
  | ⟨1, _⟩ => show ic.val = 0 + ic.val; omega
  | ⟨2, _⟩ => show a.val = a.val + (0 : Fin 1).val; simp
  | ⟨3, _⟩ => show b.val = b.val + (0 : Fin 1).val; simp

/-- One tap of the plain formulation at (n, oc, i, j). -/
theorem ref_tap (xp : R8x32x98x98.Idx → EReal) (k : SK.Idx → EReal) (a b : Fin 3)
    (hsx : R8x32x98x98.Slices ![0, 0, a.val, b.val] SX)
    (hx1 : SX.BroadcastsInDim R8x1x32x96x96 ![0, 2, 3, 4])
    (hx2 : R8x1x32x96x96.BroadcastsInDim R8x32x32x96x96 ![0, 1, 2, 3, 4])
    (hsk : SK.Slices ![0, 0, a.val, b.val] R32x32x1x1) (hc : R32x32x1x1.ShapeCasts R32x32)
    (hk1 : R32x32.BroadcastsInDim R1x32x32x1x1 ![1, 2])
    (hk2 : R1x32x32x1x1.BroadcastsInDim R8x32x32x96x96 ![0, 1, 2, 3, 4])
    (hred : R8x32x32x96x96.ReducesTo [2] SX) (hu : 0 < R_.numel) (n : Fin 8) (oc : Fin 32) (i j : Fin 96) :
    Host.reduce (FloatOps.maximumf (F := Ideal) (φ := .f32))
        (minimumf (F := Ideal)
          (broadcastInDim R8x32x32x96x96 ![0, 1, 2, 3, 4] hx2
            (broadcastInDim R8x1x32x96x96 ![0, 2, 3, 4] hx1 (extractStridedSlice SX ![0, 0, a.val, b.val] xp hsx)))
          (broadcastInDim R8x32x32x96x96 ![0, 1, 2, 3, 4] hk2
            (broadcastInDim R1x32x32x1x1 ![1, 2] hk1 (shapeCast R32x32 (extractStridedSlice R32x32x1x1 ![0, 0, a.val, b.val] k hsk) hc))))
        (constant (F := Ideal) R_ .f32 0xFF800000#32) hred hu (ix4 n oc i j)
      = (Finset.univ : Finset (Fin 32)).fold max ⊥
          (fun ic => min (xp (ix4 n ic ⟨i.val + a.val, by omega⟩ ⟨j.val + b.val, by omega⟩)) (k (ix4 oc ic a b))) := by
  rw [Host.reduce_eq_fold_single _ _ _ hred reduces_channels hu (ix4 n oc i j)]
  show (Finset.univ : Finset (Fin 32)).fold max (Ideal.ofBits .f32 0xFF800000#32) _ = _
  rw [negInf]
  refine Finset.fold_congr (fun ic _ => ?_)
  show min _ _ = _
  rw [lift_in_channel n oc i j ic, ref_window_apply, ref_weights_apply]

/-- The padded input read at (n, ic, p, q): the bordered plane (n, ic) of the input. -/
theorem pad_border (x : SX.Idx → EReal) (v : R_.Idx → EReal) (hv : v ix0 = ⊥)
    (hp : SX.Pads ![0, 0, 1, 1] ![0, 0, 1, 1] ![0, 0, 0, 0] R8x32x98x98) (hu : 0 < R_.numel)
    (n : Fin 8) (ic : Fin 32) (p q : Fin 98) :
    pad R8x32x98x98 ![0, 0, 1, 1] ![0, 0, 1, 1] ![0, 0, 0, 0] x v hp hu (ix4 n ic p q)
      = borderedAt (fun r s => x (ix4 n ic r s)) p.val q.val := by
  unfold borderedAt
  by_cases h : (1 ≤ p.val ∧ p.val ≤ 96) ∧ (1 ≤ q.val ∧ q.val ≤ 96)
  · rw [dif_pos h]
    refine pad_apply_of_inside _ _ _ x v hp hu _ _ (fun c => ?_)
    match c with
    | ⟨0, _⟩ => show n.val = 0 + n.val * (0 + 1); omega
    | ⟨1, _⟩ => show ic.val = 0 + ic.val * (0 + 1); omega
    | ⟨2, _⟩ => show p.val = 1 + (p.val - 1) * (0 + 1); omega
    | ⟨3, _⟩ => show q.val = 1 + (q.val - 1) * (0 + 1); omega
  · rw [dif_neg h]
    have hfirst : v (Shape.Idx.first hu) = ⊥ := by rw [eq_ix0 (Shape.Idx.first hu)]; exact hv
    by_cases hp' : 1 ≤ p.val ∧ p.val ≤ 96
    · refine (pad_apply_of_not_inside _ _ _ x v hp hu _ (3 : Fin 4) ?_).trans hfirst
      show ¬(1 ≤ q.val ∧ (q.val - 1) % (0 + 1) = 0 ∧ (q.val - 1) / (0 + 1) < 96)
      omega
    · refine (pad_apply_of_not_inside _ _ _ x v hp hu _ (2 : Fin 4) ?_).trans hfirst
      show ¬(1 ≤ p.val ∧ (p.val - 1) % (0 + 1) = 0 ∧ (p.val - 1) / (0 + 1) < 96)
      omega

end Cert.MaxMin

end
-- ==== Proof.RefPadded.lean ====
/-
  The plain formulation's padded input is the input with a border of −∞ one entry wide around each 96 × 96 plane; so a tap
  read off the padded input — the largest over the input channels of the smaller of the padded entry and the weight — is that
  tap of the bordered planes.
-/
import proofs.«149926_j72988674228358_1_alg».proof.Proof.Gen.ReferenceIdeal.Read
import proofs.«149926_j72988674228358_1_alg».proof.Proof.MaxMinSpec

noncomputable section

namespace Cert.ReferenceIdeal.Padded

open Cert.ReferenceIdeal Cert.ReferenceIdeal.Read Idealize.ShloMosaic Idealize.ShloMosaic.ValueIdx Cert.MaxMin

/-- The padded input at (n, ic, p, q) is plane (n, ic) of the input with its border of −∞, at (p, q). -/
theorem padded_apply (x0 : SX.Idx → EReal) (n : Fin 8) (ic : Fin 32) (p q : Fin 98) :
    val_main_v0 (F := Ideal) x0 (ix4 n ic p q) = borderedAt (fun r s => x0 (ix4 n ic r s)) p.val q.val := by
  unfold val_main_v0
  exact pad_border x0 _ negInf _ _ n ic p q

/-- So a tap read off the padded input is a tap of the bordered planes. -/
theorem tap_of_padded (x0 : SX.Idx → EReal) (x1 : SK.Idx → EReal) (a b : Fin 3) (n : Fin 8) (oc : Fin 32) (i j : Fin 96) :
    (Finset.univ : Finset (Fin 32)).fold max ⊥
        (fun ic => min (val_main_v0 (F := Ideal) x0 (ix4 n ic ⟨i.val + a.val, by omega⟩ ⟨j.val + b.val, by omega⟩)) (x1 (ix4 oc ic a b)))
      = tapOf (fun ic r s => x0 (ix4 n ic r s)) (fun ic => x1 (ix4 oc ic a b)) (i.val + a.val) (j.val + b.val) := by
  unfold tapOf
  refine Finset.fold_congr (fun ic _ => ?_)
  rw [padded_apply]

end Cert.ReferenceIdeal.Padded

end
-- ==== Proof.RefTaps.lean ====
import proofs.«149926_j72988674228358_1_alg».proof.Proof.RefPadded

noncomputable section

namespace Cert.ReferenceIdeal.Taps

open Cert.ReferenceIdeal Cert.ReferenceIdeal.Read Cert.ReferenceIdeal.Padded Idealize.ShloMosaic Idealize.ShloMosaic.ValueIdx Cert.MaxMin

/-- Tap (0, 0) of the plain formulation. -/
theorem tap00 (x0 : SX.Idx → EReal) (x1 : SK.Idx → EReal) (n : Fin 8) (oc : Fin 32) (i j : Fin 96) :
    val_main_v9 (F := Ideal) x0 x1 (ix4 n oc i j)
      = tapOf (fun ic r s => x0 (ix4 n ic r s)) (fun ic => x1 (ix4 oc ic 0 0)) (i.val + (0 : Fin 3).val) (j.val + (0 : Fin 3).val) := by
  unfold val_main_v9 val_main_v8 val_main_v7 val_main_v6 val_main_v5 val_main_v4 val_main_v3 val_main_v2 val_main_v1 val_main_cst_0
  exact (ref_tap (val_main_v0 (F := Ideal) x0) x1 0 0 _ _ _ _ _ _ _ _ _ n oc i j).trans (tap_of_padded x0 x1 0 0 n oc i j)

/-- Tap (0, 1) of the plain formulation. -/
theorem tap01 (x0 : SX.Idx → EReal) (x1 : SK.Idx → EReal) (n : Fin 8) (oc : Fin 32) (i j : Fin 96) :
    val_main_v18 (F := Ideal) x0 x1 (ix4 n oc i j)
      = tapOf (fun ic r s => x0 (ix4 n ic r s)) (fun ic => x1 (ix4 oc ic 0 1)) (i.val + (0 : Fin 3).val) (j.val + (1 : Fin 3).val) := by
  unfold val_main_v18 val_main_v17 val_main_v16 val_main_v15 val_main_v14 val_main_v13 val_main_v12 val_main_v11 val_main_v10 val_main_cst_1
  exact (ref_tap (val_main_v0 (F := Ideal) x0) x1 0 1 _ _ _ _ _ _ _ _ _ n oc i j).trans (tap_of_padded x0 x1 0 1 n oc i j)

/-- Tap (0, 2) of the plain formulation. -/
theorem tap02 (x0 : SX.Idx → EReal) (x1 : SK.Idx → EReal) (n : Fin 8) (oc : Fin 32) (i j : Fin 96) :
    val_main_v28 (F := Ideal) x0 x1 (ix4 n oc i j)
      = tapOf (fun ic r s => x0 (ix4 n ic r s)) (fun ic => x1 (ix4 oc ic 0 2)) (i.val + (0 : Fin 3).val) (j.val + (2 : Fin 3).val) := by
  unfold val_main_v28 val_main_v27 val_main_v26 val_main_v25 val_main_v24 val_main_v23 val_main_v22 val_main_v21 val_main_v20 val_main_cst_2
  exact (ref_tap (val_main_v0 (F := Ideal) x0) x1 0 2 _ _ _ _ _ _ _ _ _ n oc i j).trans (tap_of_padded x0 x1 0 2 n oc i j)

/-- Tap (1, 0) of the plain formulation. -/
theorem tap10 (x0 : SX.Idx → EReal) (x1 : SK.Idx → EReal) (n : Fin 8) (oc : Fin 32) (i j : Fin 96) :
    val_main_v38 (F := Ideal) x0 x1 (ix4 n oc i j)
      = tapOf (fun ic r s => x0 (ix4 n ic r s)) (fun ic => x1 (ix4 oc ic 1 0)) (i.val + (1 : Fin 3).val) (j.val + (0 : Fin 3).val) := by
  unfold val_main_v38 val_main_v37 val_main_v36 val_main_v35 val_main_v34 val_main_v33 val_main_v32 val_main_v31 val_main_v30 val_main_cst_3
  exact (ref_tap (val_main_v0 (F := Ideal) x0) x1 1 0 _ _ _ _ _ _ _ _ _ n oc i j).trans (tap_of_padded x0 x1 1 0 n oc i j)

/-- Tap (1, 1) of the plain formulation. -/
theorem tap11 (x0 : SX.Idx → EReal) (x1 : SK.Idx → EReal) (n : Fin 8) (oc : Fin 32) (i j : Fin 96) :
    val_main_v48 (F := Ideal) x0 x1 (ix4 n oc i j)
      = tapOf (fun ic r s => x0 (ix4 n ic r s)) (fun ic => x1 (ix4 oc ic 1 1)) (i.val + (1 : Fin 3).val) (j.val + (1 : Fin 3).val) := by
  unfold val_main_v48 val_main_v47 val_main_v46 val_main_v45 val_main_v44 val_main_v43 val_main_v42 val_main_v41 val_main_v40 val_main_cst_4
  exact (ref_tap (val_main_v0 (F := Ideal) x0) x1 1 1 _ _ _ _ _ _ _ _ _ n oc i j).trans (tap_of_padded x0 x1 1 1 n oc i j)

/-- Tap (1, 2) of the plain formulation. -/
theorem tap12 (x0 : SX.Idx → EReal) (x1 : SK.Idx → EReal) (n : Fin 8) (oc : Fin 32) (i j : Fin 96) :
    val_main_v58 (F := Ideal) x0 x1 (ix4 n oc i j)
      = tapOf (fun ic r s => x0 (ix4 n ic r s)) (fun ic => x1 (ix4 oc ic 1 2)) (i.val + (1 : Fin 3).val) (j.val + (2 : Fin 3).val) := by
  unfold val_main_v58 val_main_v57 val_main_v56 val_main_v55 val_main_v54 val_main_v53 val_main_v52 val_main_v51 val_main_v50 val_main_cst_5
  exact (ref_tap (val_main_v0 (F := Ideal) x0) x1 1 2 _ _ _ _ _ _ _ _ _ n oc i j).trans (tap_of_padded x0 x1 1 2 n oc i j)

/-- Tap (2, 0) of the plain formulation. -/
theorem tap20 (x0 : SX.Idx → EReal) (x1 : SK.Idx → EReal) (n : Fin 8) (oc : Fin 32) (i j : Fin 96) :
    val_main_v68 (F := Ideal) x0 x1 (ix4 n oc i j)
      = tapOf (fun ic r s => x0 (ix4 n ic r s)) (fun ic => x1 (ix4 oc ic 2 0)) (i.val + (2 : Fin 3).val) (j.val + (0 : Fin 3).val) := by
  unfold val_main_v68 val_main_v67 val_main_v66 val_main_v65 val_main_v64 val_main_v63 val_main_v62 val_main_v61 val_main_v60 val_main_cst_6
  exact (ref_tap (val_main_v0 (F := Ideal) x0) x1 2 0 _ _ _ _ _ _ _ _ _ n oc i j).trans (tap_of_padded x0 x1 2 0 n oc i j)

/-- Tap (2, 1) of the plain formulation. -/
theorem tap21 (x0 : SX.Idx → EReal) (x1 : SK.Idx → EReal) (n : Fin 8) (oc : Fin 32) (i j : Fin 96) :
    val_main_v78 (F := Ideal) x0 x1 (ix4 n oc i j)
      = tapOf (fun ic r s => x0 (ix4 n ic r s)) (fun ic => x1 (ix4 oc ic 2 1)) (i.val + (2 : Fin 3).val) (j.val + (1 : Fin 3).val) := by
  unfold val_main_v78 val_main_v77 val_main_v76 val_main_v75 val_main_v74 val_main_v73 val_main_v72 val_main_v71 val_main_v70 val_main_cst_7
  exact (ref_tap (val_main_v0 (F := Ideal) x0) x1 2 1 _ _ _ _ _ _ _ _ _ n oc i j).trans (tap_of_padded x0 x1 2 1 n oc i j)

/-- Tap (2, 2) of the plain formulation. -/
theorem tap22 (x0 : SX.Idx → EReal) (x1 : SK.Idx → EReal) (n : Fin 8) (oc : Fin 32) (i j : Fin 96) :
    val_main_v88 (F := Ideal) x0 x1 (ix4 n oc i j)
      = tapOf (fun ic r s => x0 (ix4 n ic r s)) (fun ic => x1 (ix4 oc ic 2 2)) (i.val + (2 : Fin 3).val) (j.val + (2 : Fin 3).val) := by
  unfold val_main_v88 val_main_v87 val_main_v86 val_main_v85 val_main_v84 val_main_v83 val_main_v82 val_main_v81 val_main_v80 val_main_cst_8
  exact (ref_tap (val_main_v0 (F := Ideal) x0) x1 2 2 _ _ _ _ _ _ _ _ _ n oc i j).trans (tap_of_padded x0 x1 2 2 n oc i j)

end Cert.ReferenceIdeal.Taps

end
-- ==== Proof.RefIsSpec.lean ====
/-
  The plain formulation computes `G`: its result is the largest of its nine tap stages, taken in the order (0,0), (0,1), …,
  (2,2), and tap stage (a, b) is tap (a, b) of the input's bordered planes against the weights (·, ·, a, b).
-/
import proofs.«149926_j72988674228358_1_alg».proof.Proof.RefTaps

noncomputable section

namespace Cert.ReferenceIdeal.IsSpec

open Cert.ReferenceIdeal Cert.ReferenceIdeal.Read Cert.ReferenceIdeal.Taps Idealize.ShloMosaic Idealize.ShloMosaic.ValueIdx Cert.MaxMin

/-- The plain formulation's result is `G` of its two arguments. -/
theorem result_eq (x0 : SX.Idx → EReal) (x1 : SK.Idx → EReal) : val_main_v89 (F := Ideal) x0 x1 = G x0 x1 := by
  funext y
  obtain ⟨n, oc, i, j, rfl⟩ : ∃ (n : Fin 8) (oc : Fin 32) (i j : Fin 96), y = ix4 n oc i j := ⟨y 0, y 1, y 2, y 3, eq_ix4 y⟩
  rw [G_ix4]
  unfold Gat nine
  rw [val_main_v89_apply, val_main_v79_apply, val_main_v69_apply, val_main_v59_apply, val_main_v49_apply, val_main_v39_apply,
    val_main_v29_apply, val_main_v19_apply, tap00, tap01, tap02, tap10, tap11, tap12, tap20, tap21, tap22]
  rfl

end Cert.ReferenceIdeal.IsSpec

end
-- ==== Proof.TilePieces.lean ====
/-
  What one grid point leaves in its output block, as one term of the two input blocks.

  The body fills its [32, 98, 98] scratch with −∞, stores the image block's 32 planes at offset (1, 1) of the 98 × 98 planes, and
  then loads nine [32, 96, 96] windows of the scratch, at the offsets (a, b), 0 ≤ a, b ≤ 2. After those two stores a load of the
  scratch reads, at each index, the newer store where it covers the index and the fill elsewhere: `window x0 a b`. The one store
  to the output block is the body's arithmetic of the weight block and those nine windows.
-/
import proofs.«149926_j72988674228358_1_alg».proof.Proof.Gen.KernelIdeal.Frame
import Idealize.ShloMosaic.Lib.Pipeline.Value

set_option maxRecDepth 16384

noncomputable section

namespace Cert.KernelIdeal.Tile

open Cert.KernelIdeal Cert.KernelIdeal.Gen Idealize.ShloMosaic Idealize.ShloMosaic.TcCoe Idealize.ShloMosaic.Tactic Idealize.SL.Sem

variable {F : FTy → Type} [FloatOps F]

theorem hz4 : (![0, 0, 0, 0] : Fin 4 → Nat) = fun _ => 0 := funext fun a => by fin_cases a <;> rfl

/-- A [32, 96, 96] window at offset (0, a, b), a, b ≤ 2, lies inside the [32, 98, 98] scratch. -/
theorem window_inb (a b : Fin 3) : ∀ c, (![0, a.val, b.val] : Fin 3 → Nat) c + S32x96x96.size c ≤ S32x98x98.size c := by
  intro c
  have ha := a.isLt; have hb := b.isLt
  match c with
  | ⟨0, _⟩ => show 0 + 32 ≤ 32; omega
  | ⟨1, _⟩ => show a.val + 96 ≤ 98; omega
  | ⟨2, _⟩ => show b.val + 96 ≤ 98; omega

/-- The scratch's two stores, the newer first: the image block's planes at offset (1, 1), over the fill of −∞. -/
def scratchStores (x0 : Vec F S1x32x96x96 .f32) : List (View.Piece (Elt F) S32x98x98 .f32) :=
  [⟨Rect.unit ![0, 1, 1] S32x96x96.size inb_S32x98x98_S32x96x96_0_1_1, k0_pay3 x0⟩,
   ⟨Rect.unit ![0, 0, 0] S32x98x98.size inb_S32x98x98_S32x98x98_0_0_0, k0_pay2⟩]

/-- What the load of the [32, 96, 96] window at offset (0, a, b) reads after the two stores. -/
def window (x0 : Vec F S1x32x96x96 .f32) (a b : Fin 3) : Vec F S32x96x96 .f32 :=
  fun j => View.canon (scratchStores x0) ((Rect.unit (s := S32x98x98) ![0, a.val, b.val] S32x96x96.size (window_inb a b)).toLoadRect.idx j)

/-- The output block after the body: the body's arithmetic of the weight block and the nine windows. -/
theorem tile_value (c : Dev nD) (i : grid0.Coords) (arg2 : Memref sig .tc .vmem S1x32x96x96 .f32) (harg2 : arg2.IsWhole) (arg3 : Memref sig .tc .vmem S8x32x3x3 .f32) (harg3 : arg3.IsWhole) (arg4 : Memref sig .tc .vmem S1x8x96x96 .f32) (harg4 : arg4.IsWhole) (arg5 : Memref sig .tc .vmem S32x98x98 .f32) (harg5 : arg5.IsWhole)
    (x0 : Vec F S1x32x96x96 .f32) (x1 : Vec F S8x32x3x3 .f32) :
    out0_A_2 c i arg2 harg2 arg3 harg3 arg4 harg4 arg5 harg5 x0 x1
      = k0_pay1 x1 (k0_pay5 x1 (k0_pay4 x1 (window x0 0 0) (window x0 0 1)) (window x0 0 2) (window x0 1 0) (window x0 1 1) (window x0 1 2)) (window x0 2 0) (k0_pay6 x1) (window x0 2 1) (window x0 2 2) := by
  unfold out0_A_2
  rw [View.read_writes_eq_canon _ _ _ (cover0_A_2 c i arg2 harg2 arg3 harg3 arg4 harg4 arg5 harg5 x0 x1)]
  unfold kernelRun0_A
  dsimp only
  sl_unfold_words
  rw [View.canon_unit_zero hz4]
  simp only [View.readAt_eq_ld, harg2.read_unread, harg3.read_unread, View.ld_unit_zero (S := S1x32x96x96) hz4,
    View.ld_unit_zero (S := S8x32x3x3) hz4, View.readCov_eq_canon']
  rfl

end Cert.KernelIdeal.Tile

end
-- ==== Proof.TileValue.lean ====
/-
  The output block of one grid point, index by index, at the extended reals.

  After the fill of −∞ and the store of the image block's planes at offset (1, 1), the scratch's plane `ic` is the block's plane
  `ic` with a border of −∞; the window loaded at offset (a, b) therefore reads, at (ic, i, j), the bordered plane at (i + a, j + b).
  Each tap's vector term is then that tap of the bordered planes, and the running maximum over the nine taps, started at −∞, is the
  largest of the nine.
-/
import proofs.«149926_j72988674228358_1_alg».proof.Proof.TilePieces
import proofs.«149926_j72988674228358_1_alg».proof.Proof.MaxMinSpec

set_option maxRecDepth 16384

noncomputable section

namespace Cert.KernelIdeal.Tile

open Cert.KernelIdeal Cert.KernelIdeal.Gen Idealize.ShloMosaic Idealize.ShloMosaic.ValueIdx Cert.MaxMin

theorem hz3 : (![0, 0, 0] : Fin 3 → Nat) = fun _ => 0 := funext fun a => by fin_cases a <;> rfl

/-- The store at offset (1, 1) writes the image block's planes: entry (ic, r, s) is the block's (0, ic, r, s). -/
theorem interior_apply (x0 : Vec Ideal S1x32x96x96 .f32) (ic : Fin 32) (r s : Fin 96) :
    k0_pay3 x0 (ix3 ic r s) = x0 (ix4 (0 : Fin 1) ic r s) := by
  unfold k0_pay3
  rw [shapeCast_self]
  refine shapeCast_apply x0 _ (ix3 ic r s) (ix4 (0 : Fin 1) ic r s) ?_
  rw [Shape.rowMajor_val_three, Shape.rowMajor_val_four]
  show (((0 : Fin 1).val * 32 + ic.val) * 96 + r.val) * 96 + s.val = (ic.val * 96 + r.val) * 96 + s.val
  simp

/-- The fill writes −∞ everywhere. -/
theorem fill_apply (y : S32x98x98.Idx) : k0_pay2 (F := Ideal) y = (⊥ : EReal) := by
  unfold k0_pay2
  rw [shapeCast_self]
  exact negInf

/-- The window loaded at offset (a, b), at (ic, i, j): plane `ic` of the image block, bordered by −∞, at (i + a, j + b). -/
theorem window_apply (x0 : Vec Ideal S1x32x96x96 .f32) (a b : Fin 3) (ic : Fin 32) (i j : Fin 96) :
    window x0 a b (ix3 ic i j) = borderedAt (fun r s => x0 (ix4 (0 : Fin 1) ic r s)) (i.val + a.val) (j.val + b.val) := by
  have ha := a.isLt; have hb := b.isLt
  unfold window scratchStores borderedAt
  have hidx : (Rect.unit (s := S32x98x98) ![0, a.val, b.val] S32x96x96.size (window_inb a b)).toLoadRect.idx (ix3 ic i j)
      = (ix3 ic (⟨i.val + a.val, by omega⟩ : Fin 98) (⟨j.val + b.val, by omega⟩ : Fin 98) : S32x98x98.Idx) := by
    funext c
    apply Fin.ext
    match c with
    | ⟨0, _⟩ => show 0 + 1 * ic.val = ic.val; omega
    | ⟨1, _⟩ => show a.val + 1 * i.val = i.val + a.val; omega
    | ⟨2, _⟩ => show b.val + 1 * j.val = j.val + b.val; omega
  rw [hidx]
  by_cases h : (1 ≤ i.val + a.val ∧ i.val + a.val ≤ 96) ∧ (1 ≤ j.val + b.val ∧ j.val + b.val ≤ 96)
  · rw [dif_pos h]
    have hemb : (ix3 ic (⟨i.val + a.val, by omega⟩ : Fin 98) (⟨j.val + b.val, by omega⟩ : Fin 98) : S32x98x98.Idx)
        = (Rect.unit (s := S32x98x98) ![0, 1, 1] S32x96x96.size inb_S32x98x98_S32x96x96_0_1_1).emb
            (ix3 ic (⟨i.val + a.val - 1, by omega⟩ : Fin 96) (⟨j.val + b.val - 1, by omega⟩ : Fin 96)) := by
      funext c
      apply Fin.ext
      match c with
      | ⟨0, _⟩ => show ic.val = 0 + 1 * ic.val; omega
      | ⟨1, _⟩ => show i.val + a.val = 1 + 1 * (i.val + a.val - 1); omega
      | ⟨2, _⟩ => show j.val + b.val = 1 + 1 * (j.val + b.val - 1); omega
    rw [hemb, View.canon_cons_emb]
    exact interior_apply x0 ic _ _
  · rw [dif_neg h]
    rw [View.canon_cons_of_not_mem, View.canon_cons_unit_zero hz3]
    · exact fill_apply _
    · rw [Rect.mem_set_unit]
      intro hm
      have h1 := hm (1 : Fin 3)
      have h2 := hm (2 : Fin 3)
      have e1 : (1 ≤ i.val + a.val ∧ i.val + a.val < 1 + 96) := h1
      have e2 : (1 ≤ j.val + b.val ∧ j.val + b.val < 1 + 96) := h2
      omega

/-- One tap's vector term at (o, i, j): the tap of the image block's bordered planes against the weight block's (o, ·, a, b). -/
theorem tap_at (x0 : Vec Ideal S1x32x96x96 .f32) (x1 : Vec Ideal S8x32x3x3 .f32) (a b : Fin 3)
    (off : Fin 4 → Nat) (hoff : off = ![0, 0, a.val, b.val]) (hs : S8x32x3x3.Slices off S8x32x1x1)
    (hφ : FKind.Formats .f32) (hacc : (0xFF800000#32 : BitVec 32) = FKind.maximumf.neutral .f32 hφ) (o : Fin 8) (i j : Fin 96) :
    multiReduction (F := Ideal) .maximumf [1] S8x96x96
        (minimumf (broadcastTo S8x32x96x96 (shapeCast S1x32x96x96 (window x0 a b) shapeCasts_S32x96x96_S1x32x96x96) broadcasts_S1x32x96x96_S8x32x96x96)
          (broadcastTo S8x32x96x96 (shapeCast S8x32x1x1 (shapeCast S8x32 (extractStridedSlice S8x32x1x1 off x1 hs)
            shapeCasts_S8x32x1x1_S8x32) shapeCasts_S8x32_S8x32x1x1) broadcasts_S8x32x1x1_S8x32x96x96))
        0xFF800000#32 reduces_S8x32x96x96_S8x96x96 hφ hacc (ix3 o i j)
      = tapOf (fun ic r s => x0 (ix4 (0 : Fin 1) ic r s)) (fun ic => x1 (ix4 o ic a b)) (i.val + a.val) (j.val + b.val) := by
  subst hoff
  refine (tile_tap (window x0 a b) x1 a b hs _ _ _ _ _ _ hφ hacc o i j).trans ?_
  unfold tapOf
  refine Finset.fold_congr (fun ic _ => ?_)
  rw [window_apply]

/-- The entrywise larger of two vectors, at an index where each is known. -/
theorem max_step (A B : FVec Ideal S8x96x96 .f32) (y : S8x96x96.Idx) (p q : EReal) (hA : A y = p) (hB : B y = q) :
    maximumf A B y = max p q := by
  rw [← hA, ← hB]; rfl

/-- THE OUTPUT BLOCK at (0, o, i, j): the largest of the nine taps of the image block's bordered planes against the weight block. -/
theorem block_apply (x0 : Vec Ideal S1x32x96x96 .f32) (x1 : Vec Ideal S8x32x3x3 .f32) (o : Fin 8) (i j : Fin 96) :
    k0_pay1 x1 (k0_pay5 x1 (k0_pay4 x1 (window x0 0 0) (window x0 0 1)) (window x0 0 2) (window x0 1 0) (window x0 1 1) (window x0 1 2))
        (window x0 2 0) (k0_pay6 x1) (window x0 2 1) (window x0 2 2) (ix4 (0 : Fin 1) o i j)
      = nine fun a b => tapOf (fun ic r s => x0 (ix4 (0 : Fin 1) ic r s)) (fun ic => x1 (ix4 o ic a b)) (i.val + a.val) (j.val + b.val) := by
  unfold k0_pay1 k0_pay5 k0_pay4 k0_pay6
  refine (shapeCast_apply _ shapeCasts_S8x96x96_S1x8x96x96 (ix4 (0 : Fin 1) o i j) (ix3 o i j) ?_).trans ?_
  · rw [Shape.rowMajor_val_three, Shape.rowMajor_val_four]
    show (o.val * 96 + i.val) * 96 + j.val = (((0 : Fin 1).val * 8 + o.val) * 96 + i.val) * 96 + j.val
    simp
  dsimp only
  rw [← nine_from_bot]
  have hbot : broadcast S8x96x96 (FloatOps.ofBits (F := Ideal) .f32 0xFF800000#32) (ix3 o i j) = (⊥ : EReal) := negInf
  refine max_step _ _ _ _ _ ?_ (tap_at x0 x1 2 2 ![0, 0, 2, 2] rfl _ _ _ o i j)
  refine max_step _ _ _ _ _ ?_ (tap_at x0 x1 2 1 ![0, 0, 2, 1] rfl _ _ _ o i j)
  refine max_step _ _ _ _ _ ?_ (tap_at x0 x1 2 0 ![0, 0, 2, 0] rfl _ _ _ o i j)
  refine max_step _ _ _ _ _ ?_ (tap_at x0 x1 1 2 ![0, 0, 1, 2] rfl _ _ _ o i j)
  refine max_step _ _ _ _ _ ?_ (tap_at x0 x1 1 1 ![0, 0, 1, 1] rfl _ _ _ o i j)
  refine max_step _ _ _ _ _ ?_ (tap_at x0 x1 1 0 ![0, 0, 1, 0] rfl _ _ _ o i j)
  refine max_step _ _ _ _ _ ?_ (tap_at x0 x1 0 2 ![0, 0, 0, 2] rfl _ _ _ o i j)
  refine max_step _ _ _ _ _ ?_ (tap_at x0 x1 0 1 ![0, 0, 0, 1] rfl _ _ _ o i j)
  exact max_step _ _ _ _ _ hbot (tap_at x0 x1 0 0 ![0, 0, 0, 0] rfl _ _ _ o i j)

end Cert.KernelIdeal.Tile

end
-- ==== Proof.TileArray.lean ====
/-
  From blocks to the array: the result array after the whole grid is `G` of the two argument arrays.

  Grid point t = (n, g) stages image n whole (window 0), the eight output channels 8g … 8g + 7 of the weights (window 1), and
  writes back the [1, 8, 96, 96] block (n, g) of the result (window 2). What it writes at (0, o, i, j) is the largest of the nine
  taps of image n's bordered planes against the weights (8g + o, ·, a, b): the value of `G` at (n, 8g + o, i, j), which is the array
  index under the block's (0, o, i, j). The 32 blocks tile the result array, so the array ends holding `G`.
-/
import proofs.«149926_j72988674228358_1_alg».proof.Proof.Gen.KernelIdeal.Value
import proofs.«149926_j72988674228358_1_alg».proof.Proof.TileValue

set_option maxRecDepth 16384

noncomputable section

namespace Cert.KernelIdeal.Whole

open Cert.KernelIdeal Cert.KernelIdeal.Gen Cert.KernelIdeal.Tile Idealize.ShloMosaic Idealize.ShloMosaic.TcCoe Idealize.SL.Sem
open Idealize.ShloMosaic.ValueIdx Cert.MaxMin
open Idealize.ShloMosaic.Pipeline (Dat)

variable (m : (ℓ : Loc nD τ sig) → Buf (Elt Ideal) ℓ) (ρ : Dev nD → PrngReg)

/-- The two input blocks at point `t` and the two argument arrays as the region finds them, at their literal types. -/
abbrev xblk (c : Dev nD) (t : Fin cfg0.N) : Vec Ideal S1x32x96x96 .f32 := iblk m c 0 t
abbrev wblk (c : Dev nD) (t : Fin cfg0.N) : Vec Ideal S8x32x3x3 .f32 := iblk m c 1 t
abbrev xarr (c : Dev nD) : Vec Ideal S8x32x96x96 .f32 := V m c main_arg0
abbrev karr (c : Dev nD) : Vec Ideal S32x32x3x3 .f32 := V m c main_arg1

/-- The three index maps, decided over the 32 grid points: the image window's block index is the output's on the image axis and
    0 elsewhere; the weight window's is the output's channel-group index on its first axis and 0 elsewhere; the output's are
    (n, g, 0, 0) with n < 8 and g < 4. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = win0_2.index t (1 : Fin 4) ∧ win0_1.index t (1 : Fin 4) = 0
    ∧ win0_1.index t (2 : Fin 4) = 0 ∧ win0_1.index t (3 : Fin 4) = 0
    ∧ win0_2.index t (0 : Fin 4) < 8 ∧ win0_2.index t (1 : Fin 4) < 4
    ∧ win0_2.index t (2 : Fin 4) = 0 ∧ win0_2.index t (3 : Fin 4) = 0 :=
  (by decide +kernel : ∀ t : Fin grid0.N, _)

/-- Every block (n, g) of the result is some point's. -/
theorem idx_onto : ∀ (q0 : Fin 8) (q1 : Fin 4), ∃ t : Fin cfg0.N, win0_2.index t = ![q0.val, q1.val, 0, 0] :=
  (by decide +kernel : ∀ (q0 : Fin 8) (q1 : Fin 4), ∃ t : Fin grid0.N, win0_2.index t = ![q0.val, q1.val, 0, 0])

/-- The image block at point `t` is image `n` of the input, `n` the output block's image index. -/
theorem xblk_apply (c : Dev nD) (t : Fin cfg0.N) (n : Fin 8) (hn : n.val = win0_2.index t (0 : Fin 4)) (ic : Fin 32) (r s : Fin 96) :
    xblk m c t (ix4 (0 : Fin 1) ic r s) = xarr m c (ix4 n ic r s) := by
  obtain ⟨e0, e1, e2, e3, -⟩ := idx_facts t
  show V m c main_arg0 (((cfg0.win 0).blk t).view.emb (ix4 (0 : Fin 1) ic r s)) = V m c main_arg0 (ix4 n ic r s)
  refine congrArg (V m c main_arg0) (funext fun a => Fin.ext ?_)
  match a with
  | ⟨0, _⟩ => show win0_0.index t (0 : Fin 4) * 1 + 1 * (0 : Fin 1).val = n.val; simp; omega
  | ⟨1, _⟩ => show win0_0.index t (1 : Fin 4) * 32 + 1 * ic.val = ic.val; omega
  | ⟨2, _⟩ => show win0_0.index t (2 : Fin 4) * 96 + 1 * r.val = r.val; omega
  | ⟨3, _⟩ => show win0_0.index t (3 : Fin 4) * 96 + 1 * s.val = s.val; omega

/-- The weight block at point `t` is the eight output channels from `8 g` of the weights, `g` the output block's channel-group index. -/
theorem wblk_apply (c : Dev nD) (t : Fin cfg0.N) (o : Fin 8) (oc : Fin 32) (hoc : oc.val = win0_2.index t (1 : Fin 4) * 8 + o.val)
    (ic : Fin 32) (a b : Fin 3) :
    wblk m c t (ix4 o ic a b) = karr m c (ix4 oc ic a b) := by
  obtain ⟨-, -, -, -, e4, e5, e6, e7, -⟩ := idx_facts t
  show V m c main_arg1 (((cfg0.win 1).blk t).view.emb (ix4 o ic a b)) = V m c main_arg1 (ix4 oc ic a b)
  refine congrArg (V m c main_arg1) (funext fun d => Fin.ext ?_)
  match d with
  | ⟨0, _⟩ => show win0_1.index t (0 : Fin 4) * 8 + 1 * o.val = oc.val; omega
  | ⟨1, _⟩ => show win0_1.index t (1 : Fin 4) * 32 + 1 * ic.val = ic.val; omega
  | ⟨2, _⟩ => show win0_1.index t (2 : Fin 4) * 3 + 1 * a.val = a.val; omega
  | ⟨3, _⟩ => show win0_1.index t (3 : Fin 4) * 3 + 1 * b.val = b.val; omega

/-- WHAT POINT `t` WRITES BACK is block `t` of `G` of the two argument arrays. -/
theorem flushed_eq (c : Dev nD) (t : Fin cfg0.N) :
    (dats m 0 c).flushed 2 t = ((cfg0.win 2).blk t).view.read (Elt Ideal) (G (xarr m c) (karr m c)) := by
  rw [Value.flushed2_A, tile_value]
  obtain ⟨-, -, -, -, -, -, -, -, e8, e9, e10, e11⟩ := idx_facts t
  funext jj
  obtain ⟨z, o, i, j, rfl⟩ : ∃ (z : Fin 1) (o : Fin 8) (i j : Fin 96), jj = ix4 z o i j := ⟨jj 0, jj 1, jj 2, jj 3, eq_ix4 jj⟩
  obtain rfl : z = 0 := Subsingleton.elim _ _
  have ho := o.isLt
  have hemb : ((cfg0.win 2).blk t).view.emb (ix4 (0 : Fin 1) o i j)
      = (ix4 (⟨win0_2.index t (0 : Fin 4), e8⟩ : Fin 8) (⟨win0_2.index t (1 : Fin 4) * 8 + o.val, by omega⟩ : Fin 32) i j : S8x32x96x96.Idx) := by
    funext a
    apply Fin.ext
    match a with
    | ⟨0, _⟩ => show win0_2.index t (0 : Fin 4) * 1 + 1 * (0 : Fin 1).val = win0_2.index t (0 : Fin 4); simp
    | ⟨1, _⟩ => show win0_2.index t (1 : Fin 4) * 8 + 1 * o.val = win0_2.index t (1 : Fin 4) * 8 + o.val; omega
    | ⟨2, _⟩ => show win0_2.index t (2 : Fin 4) * 96 + 1 * i.val = i.val; omega
    | ⟨3, _⟩ => show win0_2.index t (3 : Fin 4) * 96 + 1 * j.val = j.val; omega
  refine (block_apply (xblk m c t) (wblk m c t) o i j).trans ?_
  show _ = G (xarr m c) (karr m c) (((cfg0.win 2).blk t).view.emb (ix4 (0 : Fin 1) o i j))
  rw [hemb, G_ix4]
  unfold Gat
  simp only [xblk_apply m c t (⟨win0_2.index t (0 : Fin 4), e8⟩ : Fin 8) rfl,
    wblk_apply m c t o (⟨win0_2.index t (1 : Fin 4) * 8 + o.val, by omega⟩ : Fin 32) rfl]

/-- An index of the result array is in point `t`'s block iff each coordinate is in the block's range on its axis. -/
theorem mem_blk (t : Fin cfg0.N) (y : S8x32x96x96.Idx) :
    y ∈ ((cfg0.win 2).blk t).view.set ↔ ∀ a : Fin 4, win0_2.index t a * S1x8x96x96.size a ≤ (y a).val ∧ (y a).val < win0_2.index t a * S1x8x96x96.size a + S1x8x96x96.size a := by
  show y ∈ ((View.whole main_v0).slice (win0_2.rect t)).set ↔ _
  rw [View.set_slice_whole, Rect.mem_set_unit]
  exact Iff.rfl

/-- The 32 blocks tile the result array: index (n, oc, i, j) is in the block of the point whose block index is (n, oc / 8, 0, 0). -/
theorem cover (y : S8x32x96x96.Idx) : ∃ t : Fin cfg0.N, (cfg0.win 2).flush t = true ∧ y ∈ ((cfg0.win 2).blk t).view.set := by
  have h0 : (y 0).val < 8 := (y 0).isLt
  have h1 : (y 1).val < 32 := (y 1).isLt
  have h2 : (y 2).val < 96 := (y 2).isLt
  have h3 : (y 3).val < 96 := (y 3).isLt
  obtain ⟨t, ht⟩ := idx_onto ⟨(y 0).val, h0⟩ ⟨(y 1).val / 8, by omega⟩
  have q0 : win0_2.index t (0 : Fin 4) = (y 0).val := congrFun ht 0
  have q1 : win0_2.index t (1 : Fin 4) = (y 1).val / 8 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (y 0).val ∧ (y 0).val < win0_2.index t (0 : Fin 4) * 1 + 1; omega
  | ⟨1, _⟩ => show win0_2.index t (1 : Fin 4) * 8 ≤ (y 1).val ∧ (y 1).val < win0_2.index t (1 : Fin 4) * 8 + 8; omega
  | ⟨2, _⟩ => show win0_2.index t (2 : Fin 4) * 96 ≤ (y 2).val ∧ (y 2).val < win0_2.index t (2 : Fin 4) * 96 + 96; omega
  | ⟨3, _⟩ => show win0_2.index t (3 : Fin 4) * 96 ≤ (y 3).val ∧ (y 3).val < win0_2.index t (3 : Fin 4) * 96 + 96; omega

/-- THE RESULT ARRAY after the run is `G` of the two argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (xarr m c) (karr m c)) (fun t _ => flushed_eq m c t) cover

/-- The run, read: the result array ends at `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/-
  The max–min "convolution" kernel against its plain formulation, over the extended reals.

  Both programs compute, for an input `X : [8, 32, 96, 96]` and weights `K : [32, 32, 3, 3]`,
    out[n, oc, i, j] = max over the nine taps (a, b) of  max over ic of  min (X̄[n, ic, i + a, j + b]) (K[oc, ic, a, b]),
  `X̄` the input with a border of −∞ one entry wide around each 96 × 96 plane (`Cert.MaxMin.G`).

  The plain formulation pads the whole input with −∞ and takes, tap by tap, the largest over the input channels of the smaller of
  a shifted slice of the padded input and the tap's weights, then the largest of the nine taps in order
  (`Cert.ReferenceIdeal.IsSpec.result_eq`). The kernel works one image and eight output channels at a time: it builds the image's
  bordered planes in a scratch buffer (a fill of −∞, then the planes stored at offset (1, 1)), reads the nine shifted windows back,
  and keeps a running maximum over the taps that starts at −∞ (`Cert.KernelIdeal.Tile.block_apply`); its 32 blocks tile the result
  (`Cert.KernelIdeal.Whole.final`). The two agree because −∞ is the least extended real, hence the unit of `max`; nothing else is
  used, so the precondition (finite inputs) is never opened. The idealization rewrote no operation, so it preserves the kernel trivially.
-/
import proofs.«149926_j72988674228358_1_alg».proof.Defs
import proofs.«149926_j72988674228358_1_alg».proof.Proof.Gen.Kernel
import proofs.«149926_j72988674228358_1_alg».proof.Proof.Gen.Kernel.Skeleton
import proofs.«149926_j72988674228358_1_alg».proof.Proof.Gen.Kernel.Launch
import proofs.«149926_j72988674228358_1_alg».proof.Proof.Gen.Kernel.Points
import proofs.«149926_j72988674228358_1_alg».proof.Proof.Gen.Kernel.Frame
import proofs.«149926_j72988674228358_1_alg».proof.Proof.Gen.KernelIdeal
import proofs.«149926_j72988674228358_1_alg».proof.Proof.Gen.KernelIdeal.Skeleton
import proofs.«149926_j72988674228358_1_alg».proof.Proof.Gen.KernelIdeal.Launch
import proofs.«149926_j72988674228358_1_alg».proof.Proof.Gen.KernelIdeal.Points
import proofs.«149926_j72988674228358_1_alg».proof.Proof.Gen.KernelIdeal.Frame
import proofs.«149926_j72988674228358_1_alg».proof.Proof.Gen.KernelIdeal.Value
import proofs.«149926_j72988674228358_1_alg».proof.Proof.Gen.ReferenceIdeal
import proofs.«149926_j72988674228358_1_alg».proof.Proof.Gen.ReferenceIdeal.Run
import proofs.«149926_j72988674228358_1_alg».proof.Proof.Gen.ReferenceIdeal.Read
import proofs.«149926_j72988674228358_1_alg».proof.Proof.Gen.Pre_finite_inputs
import proofs.«149926_j72988674228358_1_alg».proof.Proof.RefIsSpec
import proofs.«149926_j72988674228358_1_alg».proof.Proof.TileArray
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The plain formulation runs and leaves its arguments as they were: its run, the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the two arguments both programs end with the result array at `G` of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, Cert.ReferenceIdeal.IsSpec.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
